-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageLayer.lean ====
/-
  One GraphSAGE layer with ReLU, read entry by entry over the extended reals.

  For node features `A` (the neighbour means) and `X` (the nodes' own features), both [50000, 128], weight matrices
  `Wl`, `Wr` laid out [input, output] = [128, 128] and a bias `b` of length 128, entry (r, q) of the layer is

      max ( (Σ_k A[r,k] · Wl[k,q]  +  Σ_k X[r,k] · Wr[k,q])  +  b[q] ,  0 ).

  The two programs of the certificate group the three summands differently, (a + c) + b against (a + b) + c; on the
  extended reals addition is commutative and associative (also at the infinities), so the two groupings agree
  (`add_right_comm`) and no finiteness of the inputs is needed.
-/
import Idealize.ShloMosaic.PureOps.Ideal
import Idealize.ShloMosaic.Lib.ValueIdx

noncomputable section

open scoped BigOperators

namespace Cert.Sage

open Idealize.ShloMosaic

/-- Node features: 50000 nodes, 128 features each. -/
abbrev SNodes : Shape := ⟨2, ![50000, 128]⟩
/-- A weight matrix, [input feature, output feature]. -/
abbrev SWeight : Shape := ⟨2, ![128, 128]⟩
/-- The bias, one entry per output feature. -/
abbrev SBias : Shape := ⟨1, ![128]⟩

/-- Feature `k` of the node that entry `i` belongs to: (row of `i`, `k`). -/
abbrev featIdx (i : SNodes.Idx) (k : Fin 128) : SNodes.Idx := fun a => match a with
  | ⟨0, _⟩ => ⟨(i 0).val, (i 0).isLt⟩
  | ⟨1, _⟩ => ⟨k.val, k.isLt⟩

/-- The weight that input feature `k` carries into entry `i`'s output feature: (`k`, column of `i`). -/
abbrev weightIdx (i : SNodes.Idx) (k : Fin 128) : SWeight.Idx := fun a => match a with
  | ⟨0, _⟩ => ⟨k.val, k.isLt⟩
  | ⟨1, _⟩ => ⟨(i 1).val, (i 1).isLt⟩

/-- The bias entry of entry `i`'s output feature: (column of `i`). -/
abbrev biasIdx (i : SNodes.Idx) : SBias.Idx := fun a => match a with
  | ⟨0, _⟩ => ⟨(i 1).val, (i 1).isLt⟩

/-- The layer: neighbour means through `Wl`, own features through `Wr`, the bias, then ReLU. -/
def layer (A X : SNodes.Idx → EReal) (Wl Wr : SWeight.Idx → EReal) (b : SBias.Idx → EReal) : SNodes.Idx → EReal := fun i =>
  max ((∑ k : Fin 128, A (featIdx i k) * Wl (weightIdx i k) + ∑ k : Fin 128, X (featIdx i k) * Wr (weightIdx i k)) + b (biasIdx i)) 0

/-- The same entry with the bias added before the second product, as a plain jnp expression groups it. -/
theorem layer_apply_bias_first (A X : SNodes.Idx → EReal) (Wl Wr : SWeight.Idx → EReal) (b : SBias.Idx → EReal) (i : SNodes.Idx) :
    max ((∑ k : Fin 128, A (featIdx i k) * Wl (weightIdx i k) + b (biasIdx i)) + ∑ k : Fin 128, X (featIdx i k) * Wr (weightIdx i k)) 0
      = layer A X Wl Wr b i := by
  unfold layer
  rw [add_right_comm]

end Cert.Sage

end
-- ==== Proof.RefLayer.lean ====
/-
  The reference program computes the layer of `SageLayer.lean`.

  Read one operation at a time, entry `i` = (r, q) of the reference's result is
  max ((Σ_k agg[r,k] · W_lᵀ[k,q] + b[q]) + Σ_k x[r,k] · W_rᵀ[k,q], 0), where `agg` is the array of neighbour means the
  program computes first (a gather, two scatter-adds and a quotient: kept whole here, never opened) and W_lᵀ, W_rᵀ are
  the transposed weight matrices (kept whole too). That is `Cert.Sage.layer` with the bias added first.
-/
import proofs.«143115_j39092792328709_1_alg».proof.Proof.Gen.ReferenceIdeal.Read
import proofs.«143115_j39092792328709_1_alg».proof.Proof.SageLayer

noncomputable section

open scoped BigOperators

namespace Cert.ReferenceIdeal.Layer

open Cert.ReferenceIdeal Cert.ReferenceIdeal.Gen Cert.ReferenceIdeal.Read Idealize.ShloMosaic

/-- The left operand of either product is read at (row of `i`, `k`). -/
theorem lidx24_eq (i : S50000x128.Idx) (k : Fin 128) : lidx_main_v24 i k = Cert.Sage.featIdx i k :=
  funext fun a => Fin.ext (by match a with | ⟨0, _⟩ => rfl | ⟨1, _⟩ => rfl)
theorem lidx29_eq (i : S50000x128.Idx) (k : Fin 128) : lidx_main_v29 i k = Cert.Sage.featIdx i k :=
  funext fun a => Fin.ext (by match a with | ⟨0, _⟩ => rfl | ⟨1, _⟩ => rfl)
/-- The right operand of either product is read at (`k`, column of `i`). -/
theorem ridx24_eq (i : S50000x128.Idx) (k : Fin 128) : ridx_main_v24 i k = Cert.Sage.weightIdx i k :=
  funext fun a => Fin.ext (by match a with | ⟨0, _⟩ => rfl | ⟨1, _⟩ => rfl)
theorem ridx29_eq (i : S50000x128.Idx) (k : Fin 128) : ridx_main_v29 i k = Cert.Sage.weightIdx i k :=
  funext fun a => Fin.ext (by match a with | ⟨0, _⟩ => rfl | ⟨1, _⟩ => rfl)
/-- The bias, broadcast to a row and then to every node, is read at (column of `i`). -/
theorem bidx_eq (i : S50000x128.Idx) : idx_main_v25 (idx_main_v26 i) = Cert.Sage.biasIdx i :=
  funext fun a => Fin.ext (by match a with | ⟨0, _⟩ => rfl)

/-- THE REFERENCE IS THE LAYER: its last stage, as a function of the five arguments, is `Cert.Sage.layer` of the
    neighbour means (stage 22), the node features, the two transposed weight matrices (stages 23 and 28) and the bias. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = Cert.Sage.layer (val_main_v22 (F := Ideal) x0 x1) x0 (val_main_v23 (F := Ideal) x2) (val_main_v28 (F := Ideal) x4) x3 := by
  funext i
  rw [val_main_v31_apply, val_main_v30_apply, val_main_v27_apply, val_main_v24_apply, val_main_v29_apply,
    val_main_v26_apply, val_main_v25_apply, val_main_call0_v0_apply, val_main_call0_cst_apply]
  simp only [lidx24_eq, lidx29_eq, ridx24_eq, ridx29_eq, bidx_eq, Ideal.maximumf_def, Ideal.addf_def, Ideal.ofBits_def,
    Ideal.ofBits_zero_f32]
  exact Cert.Sage.layer_apply_bias_first _ _ _ _ _ i

end Cert.ReferenceIdeal.Layer

end
-- ==== Proof.KernelEntry.lean ====
/-
  One entry of what the kernel body stores for a tile of 5000 nodes.

  The body loads a tile `a` of neighbour means and a tile `x` of node features (both [5000, 128]), the two weight
  matrices `wl`, `wr` ([128, 128], input feature by output feature) and the bias row `b` ([1, 128]), and stores
  max ((a · wl + x · wr) + b, 0). On the extended reals the narrowing of the operands before each product is the identity
  and a product into a zero accumulator is the plain sum over the 128 input features, so entry (p, q) of the stored
  tile is  max ((Σ_k a[p,k] · wl[k,q] + Σ_k x[p,k] · wr[k,q]) + b[0,q], 0).
-/
import proofs.«143115_j39092792328709_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic

/-! ## The product's operand indices, axis by axis -/

/-- The left operand's row is the output entry's row. -/
theorem lhs_tile_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted feature. -/
theorem lhs_tile_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row is the contracted feature. -/
theorem rhs_tile_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- The right operand's column is the output entry's column. -/
theorem rhs_tile_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Feature `k` of tile row (row of `j`). -/
abbrev tileFeat (j : S5000x128.Idx) (k : Fin 128) : S5000x128.Idx := fun a => match a with
  | ⟨0, _⟩ => ⟨(j 0).val, (j 0).isLt⟩
  | ⟨1, _⟩ => ⟨k.val, k.isLt⟩
/-- The weight from input feature `k` to output feature (column of `j`). -/
abbrev tileWeight (j : S5000x128.Idx) (k : Fin 128) : S128x128.Idx := fun a => match a with
  | ⟨0, _⟩ => ⟨k.val, k.isLt⟩
  | ⟨1, _⟩ => ⟨(j 1).val, (j 1).isLt⟩
/-- The bias row at output feature (column of `j`). -/
abbrev tileBias (j : S5000x128.Idx) : S1x128.Idx := fun a => match a with
  | ⟨0, _⟩ => ⟨0, Nat.one_pos⟩
  | ⟨1, _⟩ => ⟨(j 1).val, (j 1).isLt⟩

/-! ## The operations that are not entrywise, read at an entry -/

/-- A tile's product with a weight matrix into a zero accumulator, at entry `j`: the sum over the 128 input features. -/
theorem matmul_tile_apply {φ₁ φ₂ : FTy} (l : FVec Ideal S5000x128 φ₁) (r : FVec Ideal S128x128 φ₂) (j : S5000x128.Idx) :
    matmul dot_S5000x128_S128x128_S5000x128_1_0_0_1_n_n none l r (constant (F := Ideal) S5000x128 .f32 0x00000000#32) j
      = ∑ k : Fin 128, l (tileFeat j k) * r (tileWeight j k) := by
  show FloatOps.matmul dot_S5000x128_S128x128_S5000x128_1_0_0_1_n_n none l r (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = tileFeat j k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx j ((ValueIdx.contrEquiv1 dot_S5000x128_S128x128_S5000x128_1_0_0_1_n_n 128 rfl rfl).symm k) = tileWeight j k := funext fun a => Fin.ext (by
    match a with
    | ⟨0, _⟩ => exact (rhs_tile_0 _ _).trans hk
    | ⟨1, _⟩ => exact rhs_tile_1 _ _)
  rw [el, er]

/-- The bias row broadcast down the tile's 5000 rows, at entry `j`: the row's entry in `j`'s column. -/
theorem bias_tile_apply (b : FVec Ideal S1x128 .f32) (j : S5000x128.Idx) :
    broadcastTo S5000x128 b broadcasts_S1x128_S5000x128 j = b (tileBias j) :=
  broadcastTo_apply b broadcasts_S1x128_S5000x128 j (tileBias j) (fun a => match a with
    | ⟨0, _⟩ => by show 0 = if (1 : Nat) = 1 then 0 else _; rw [if_pos rfl]
    | ⟨1, _⟩ => by show (j 1).val = if (128 : Nat) = 1 then 0 else _; rw [if_neg (by decide)]; rfl)

/-! ## The stored tile, entry by entry -/

/-- ENTRY `j` OF THE STORED TILE: the two products' sums, the bias, and the maximum with zero. -/
theorem pay_apply (a x : Vec Ideal S5000x128 .f32) (wl wr : Vec Ideal S128x128 .f32) (b : Vec Ideal S1x128 .f32) (j : S5000x128.Idx) :
    k0_pay1 a x wl wr b j
      = max ((∑ k : Fin 128, a (tileFeat j k) * wl (tileWeight j k) + ∑ k : Fin 128, x (tileFeat j k) * wr (tileWeight j k)) + b (tileBias j)) 0 := by
  unfold k0_pay1
  simp only [shapeCast_self]
  show max ((matmul dot_S5000x128_S128x128_S5000x128_1_0_0_1_n_n none (truncf .bf16 a bitsLt_bf16_f32) (truncf .bf16 wl bitsLt_bf16_f32) (constant (F := Ideal) S5000x128 .f32 0x00000000#32) j
      + matmul dot_S5000x128_S128x128_S5000x128_1_0_0_1_n_n none (truncf .bf16 x bitsLt_bf16_f32) (truncf .bf16 wr bitsLt_bf16_f32) (constant (F := Ideal) S5000x128 .f32 0x00000000#32) j)
      + broadcastTo S5000x128 b broadcasts_S1x128_S5000x128 j) (Ideal.ofBits .f32 0x00000000#32) = _
  rw [matmul_tile_apply, matmul_tile_apply, bias_tile_apply, Ideal.ofBits_zero_f32]
  rfl

end Cert.KernelIdeal.Entry

end
-- ==== Proof.TileIndex.lean ====
/-
  Where the entries of a staged tile sit in the whole arrays: index arithmetic only.

  The grid has 10 points. At point `t` the windows of the neighbour means, of the node features and of the result are at
  row block `t` (rows 5000·t … 5000·t + 4999, all 128 columns); the two weight matrices and the bias row are staged whole
  (block (0, 0)). So, for an entry `j` = (p, q) of the result tile sitting at `i` = (5000·t + p, q) of the result array:
  tile entry (p, k) of a node array is array entry (row of `i`, k); weight entry (k, q) is (k, column of `i`); bias row
  entry (0, q) is (0, column of `i`). And every row of the array is in the tile of point (row / 5000).
-/
import proofs.«143115_j39092792328709_1_alg».proof.Proof.Gen.KernelIdeal.Points
import proofs.«143115_j39092792328709_1_alg».proof.Proof.KernelEntry
import proofs.«143115_j39092792328709_1_alg».proof.Proof.SageLayer

noncomputable section

namespace Cert.KernelIdeal.TileIndex

open Cert.KernelIdeal Cert.KernelIdeal.Gen Cert.KernelIdeal.Entry Idealize.ShloMosaic

/-- The index maps over the 10 grid points: the two node-array windows move with the result's window down the rows,
    the weights and the bias stay at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 10 row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

section
variable (t : Fin cfg0.N) (j : S5000x128.Idx) (k : Fin 128)

/-- Where entry `j` of point `t`'s result tile sits in the result array. -/
abbrev at5 : S50000x128.Idx := ((cfg0.win 5).blk t).view.emb j

/-- The bias row's entry for the output feature of array entry `i`: (0, column of `i`). -/
abbrev biasRowIdx (i : S50000x128.Idx) : S1x128.Idx := fun a => match a with
  | ⟨0, _⟩ => ⟨0, Nat.one_pos⟩
  | ⟨1, _⟩ => ⟨(i 1).val, (i 1).isLt⟩

theorem emb_agg : ((cfg0.win 0).blk t).view.emb (tileFeat j k) = Cert.Sage.featIdx (at5 t j) k := by
  obtain ⟨e00, e01, e10, e11, e20, e21, e30, e31, e40, e41, e51⟩ := idx_facts t
  funext a; apply Fin.ext
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 128 + 1 * k.val = k.val; omega

theorem emb_x : ((cfg0.win 1).blk t).view.emb (tileFeat j k) = Cert.Sage.featIdx (at5 t j) k := by
  obtain ⟨e00, e01, e10, e11, e20, e21, e30, e31, e40, e41, e51⟩ := idx_facts t
  funext a; apply Fin.ext
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 128 + 1 * k.val = k.val; omega

theorem emb_wl : ((cfg0.win 2).blk t).view.emb (tileWeight j k) = Cert.Sage.weightIdx (at5 t j) k := by
  obtain ⟨e00, e01, e10, e11, e20, e21, e30, e31, e40, e41, e51⟩ := idx_facts t
  funext a; apply Fin.ext
  match a with
  | ⟨0, _⟩ => show win0_2.index t (0 : Fin 2) * 128 + 1 * k.val = k.val; omega
  | ⟨1, _⟩ => show win0_2.index t (1 : Fin 2) * 128 + 1 * (j 1).val = win0_5.index t (1 : Fin 2) * 128 + 1 * (j 1).val; omega

theorem emb_wr : ((cfg0.win 4).blk t).view.emb (tileWeight j k) = Cert.Sage.weightIdx (at5 t j) k := by
  obtain ⟨e00, e01, e10, e11, e20, e21, e30, e31, e40, e41, e51⟩ := idx_facts t
  funext a; apply Fin.ext
  match a with
  | ⟨0, _⟩ => show win0_4.index t (0 : Fin 2) * 128 + 1 * k.val = k.val; omega
  | ⟨1, _⟩ => show win0_4.index t (1 : Fin 2) * 128 + 1 * (j 1).val = win0_5.index t (1 : Fin 2) * 128 + 1 * (j 1).val; omega

theorem emb_bias : ((cfg0.win 3).blk t).view.emb (tileBias j) = biasRowIdx (at5 t j) := by
  obtain ⟨e00, e01, e10, e11, e20, e21, e30, e31, e40, e41, e51⟩ := idx_facts t
  funext a; apply Fin.ext
  match a with
  | ⟨0, _⟩ => show win0_3.index t (0 : Fin 2) * 1 + 1 * 0 = 0; omega
  | ⟨1, _⟩ => show win0_3.index t (1 : Fin 2) * 128 + 1 * (j 1).val = win0_5.index t (1 : Fin 2) * 128 + 1 * (j 1).val; omega

end

/-- An entry of the result array is in point `t`'s tile iff each coordinate is in the tile's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- THE TILES COVER THE ARRAY: row `r` is in the tile of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Cert.KernelIdeal.TileIndex

end
-- ==== Proof.KernelTiles.lean ====
/-
  From the tiles the kernel writes to its whole result array.

  At grid point `t` the body sees tile `t` of the neighbour means `A` and of the node features `X`, the weight matrices
  `Wl`, `Wr` and the bias row `B` whole, and stores max ((a · wl + x · wr) + b, 0). Entry `j` = (p, q) of that tile is the
  layer's entry at `i` = (5000·t + p, q) of the whole arrays: `KernelEntry.lean` gives the tile's entry as sums over the
  tile's rows, `TileIndex.lean` says where those rows sit in the arrays. This is proved once for ANY five arrays
  (`tile_eq`), and then used at the arrays the region finds. The ten tiles cover the 50000 rows, so the result array
  after the run IS the layer of those arrays.
-/
import proofs.«143115_j39092792328709_1_alg».proof.Proof.Gen.KernelIdeal.Value
import proofs.«143115_j39092792328709_1_alg».proof.Proof.TileIndex

noncomputable section

open scoped BigOperators

namespace Cert.KernelIdeal.Tiles

open Cert.KernelIdeal Cert.KernelIdeal.Gen Cert.KernelIdeal.Entry Cert.KernelIdeal.TileIndex Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The bias as the layer takes it (one entry per output feature), from the [1, 128] row the kernel stages. -/
def biasOfRow (B : S1x128.Idx → EReal) : Cert.Sage.SBias.Idx → EReal := fun q => B (fun a => match a with
  | ⟨0, _⟩ => ⟨0, Nat.one_pos⟩
  | ⟨1, _⟩ => ⟨(q 0).val, (q 0).isLt⟩)

/-- The row's entry (0, column of `i`) is the bias of `i`'s output feature. -/
theorem biasOfRow_at (B : S1x128.Idx → EReal) (i : S50000x128.Idx) : B (biasRowIdx i) = biasOfRow B (Cert.Sage.biasIdx i) := by
  unfold biasOfRow
  exact congrArg B (funext fun a => Fin.ext (by match a with | ⟨0, _⟩ => rfl | ⟨1, _⟩ => rfl))

/-! ## One tile, for any five arrays -/

section generic
variable (A X : S50000x128.Idx → EReal) (Wl Wr : S128x128.Idx → EReal) (B : S1x128.Idx → EReal) (t : Fin cfg0.N)

/-- THE TILE: the body's stored value over the five arrays' blocks at point `t` is block `t` of the layer of the arrays. -/
theorem tile_eq :
    (cfg0.win 5).cut (grid0.coords t)
        (k0_pay1 (((cfg0.win 0).blk t).view.read (Elt Ideal) A) (((cfg0.win 1).blk t).view.read (Elt Ideal) X)
          (((cfg0.win 2).blk t).view.read (Elt Ideal) Wl) (((cfg0.win 4).blk t).view.read (Elt Ideal) Wr)
          (((cfg0.win 3).blk t).view.read (Elt Ideal) B))
      = ((cfg0.win 5).blk t).view.read (Elt Ideal) (Cert.Sage.layer A X Wl Wr (biasOfRow B)) := by
  funext j
  show k0_pay1 (F := Ideal) _ _ _ _ _ j = Cert.Sage.layer A X Wl Wr (biasOfRow B) (at5 t j)
  refine (pay_apply _ _ _ _ _ j).trans ?_
  unfold Cert.Sage.layer
  show max ((∑ k : Fin 128, A (((cfg0.win 0).blk t).view.emb (tileFeat j k)) * Wl (((cfg0.win 2).blk t).view.emb (tileWeight j k))
      + ∑ k : Fin 128, X (((cfg0.win 1).blk t).view.emb (tileFeat j k)) * Wr (((cfg0.win 4).blk t).view.emb (tileWeight j k)))
      + B (((cfg0.win 3).blk t).view.emb (tileBias j))) 0 = _
  refine congrArg (fun z : EReal => max z 0) ?_
  refine congrArg₂ (fun u v : EReal => u + v) (congrArg₂ (fun u v : EReal => u + v) (Finset.sum_congr rfl fun k _ => ?_) (Finset.sum_congr rfl fun k _ => ?_)) ?_
  · exact congrArg₂ (fun u v : EReal => u * v) (congrArg A (emb_agg t j k)) (congrArg Wl (emb_wl t j k))
  · exact congrArg₂ (fun u v : EReal => u * v) (congrArg X (emb_x t j k)) (congrArg Wr (emb_wr t j k))
  · exact (congrArg B (emb_bias t j)).trans (biasOfRow_at B (at5 t j))

end generic

/-! ## The run's tiles, and the whole array -/

variable (m : (ℓ : Loc nD τ sig) → Buf (Elt Ideal) ℓ) (ρ : Dev nD → PrngReg)

/-- The layer of the arrays as the region finds them. -/
abbrev found (c : Dev nD) : S50000x128.Idx → EReal :=
  Cert.Sage.layer (V m c main_v22) (V m c main_arg0) (V m c main_v23) (V m c main_v24) (biasOfRow (V m c main_v25))

/-- WHAT POINT `t` WRITES BACK is tile `t` of the layer of the arrays the region finds. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero hz]
  simp only [View.ld_unit_zero (S := S5000x128) hz, View.ld_unit_zero (S := S128x128) hz, View.ld_unit_zero (S := S1x128) hz]
  exact tile_eq (V m c main_v22) (V m c main_arg0) (V m c main_v23) (V m c main_v24) (V m c main_v25) t

/-- THE RESULT ARRAY after the run is the layer of the arrays the region finds: the ten tiles cover it. -/
theorem final (c : Dev nD) : (dats m 0 c).arrAt 5 cfg0.N = found m c :=
  (dats m 0 c).arrAt_eq_of_cover 5 (found m c) (fun t _ => flushed_eq m c t) cover

/-- The kernel's run, read: the result array at the layer, the five arguments unchanged. -/
theorem run : θ_run defs (onTc (τ := τ) (main (F := Ideal))) ⟨m, fun _ => 0, ρ⟩ fun r => ∀ c : Dev nD,
      r.2.mem ((c : Thread nD τ).loc main_v26) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Tiles

end
-- ==== Proof.HostPrefix.lean ====
/-
  The arrays the kernel's region finds are the reference's own intermediate arrays.

  Before its one region the kernel program computes, with host operations, the neighbour means (a gather of the node
  features at the edges' sources, a scatter-add into the edges' destinations, the in-degrees by a second scatter-add
  and the quotient by max(degree, 1)), the two transposed weight matrices and the bias as a [1, 128] row. The reference
  program begins with the same operations on the same arguments: its stages 22 (the means), 23 and 28 (the transposes).
  So each array the region stages is the corresponding stage of the reference, and the bias row read at (0, q) is the
  bias at q. The means are never opened: the two programs' terms for them are one term.
-/
import proofs.«143115_j39092792328709_1_alg».proof.Proof.Gen.KernelIdeal.Frame
import proofs.«143115_j39092792328709_1_alg».proof.Proof.Gen.ReferenceIdeal.Read
import proofs.«143115_j39092792328709_1_alg».proof.Proof.KernelTiles
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The neighbour means the region stages are the reference's stage 22 of the node features and the edge list. -/
theorem means_eq (c : Dev nD) :
    (V m c main_v22 : S50000x128.Idx → EReal)
      = Cert.ReferenceIdeal.Read.val_main_v22 (F := Ideal) (m ((c : Thread nD τ).loc main_arg0)) (m ((c : Thread nD τ).loc main_arg1)) := by
  show StableHlo.after hostOps0 (fun b => m (c, b)) _ = _
  after_results_simp <;> rfl

/-- The first weight matrix as staged is the reference's transpose of it (stage 23). -/
theorem wl_eq (c : Dev nD) :
    (V m c main_v23 : S128x128.Idx → EReal) = Cert.ReferenceIdeal.Read.val_main_v23 (F := Ideal) (m ((c : Thread nD τ).loc main_arg2)) := by
  show StableHlo.after hostOps0 (fun b => m (c, b)) _ = _
  after_results_simp <;> rfl

/-- The second weight matrix as staged is the reference's transpose of it (stage 28). -/
theorem wr_eq (c : Dev nD) :
    (V m c main_v24 : S128x128.Idx → EReal) = Cert.ReferenceIdeal.Read.val_main_v28 (F := Ideal) (m ((c : Thread nD τ).loc main_arg4)) := by
  show StableHlo.after hostOps0 (fun b => m (c, b)) _ = _
  after_results_simp <;> rfl

/-- The bias row as staged is the bias reshaped to [1, 128]. -/
theorem bias_row (c : Dev nD) :
    (V m c main_v25 : S1x128.Idx → EReal) = shapeCast S1x128 (m ((c : Thread nD τ).loc main_arg3)) shapeCasts_S128_S1x128 := by
  show StableHlo.after hostOps0 (fun b => m (c, b)) _ = _
  after_results_simp <;> rfl

/-- Read at (0, q) it is the bias at q. -/
theorem bias_eq (c : Dev nD) :
    Cert.KernelIdeal.Tiles.biasOfRow (V m c main_v25) = (m ((c : Thread nD τ).loc main_arg3) : S128.Idx → EReal) := by
  rw [bias_row]
  funext q
  unfold Cert.KernelIdeal.Tiles.biasOfRow
  refine shapeCast_apply _ shapeCasts_S128_S1x128 _ q ?_
  rewrite [Shape.rowMajor_val_one, Shape.rowMajor_val_two]
  show (q 0).val = 0 * 128 + (q 0).val
  omega

/-- THE KERNEL'S RESULT OVER THE REFERENCE'S STAGES: the layer of the arrays the region finds is the layer of the
    reference's neighbour means, the node features, the reference's two transposed weight matrices and the bias. -/
theorem found_eq (c : Dev nD) :
    Cert.KernelIdeal.Tiles.found m c
      = Cert.Sage.layer
          (Cert.ReferenceIdeal.Read.val_main_v22 (F := Ideal) (m ((c : Thread nD τ).loc main_arg0)) (m ((c : Thread nD τ).loc main_arg1)))
          (m ((c : Thread nD τ).loc main_arg0))
          (Cert.ReferenceIdeal.Read.val_main_v23 (F := Ideal) (m ((c : Thread nD τ).loc main_arg2)))
          (Cert.ReferenceIdeal.Read.val_main_v28 (F := Ideal) (m ((c : Thread nD τ).loc main_arg4)))
          (m ((c : Thread nD τ).loc main_arg3)) := by
  show Cert.Sage.layer (V m c main_v22) (V m c main_arg0) (V m c main_v23) (V m c main_v24)
      (Cert.KernelIdeal.Tiles.biasOfRow (V m c main_v25)) = _
  rw [means_eq m c, V_main_arg0 m c, wl_eq m c, wr_eq m c, bias_eq m c]

end Cert.KernelIdeal.HostPrefix

end
-- ==== Proof.lean ====
/-
  A GraphSAGE layer with mean aggregation and ReLU: the tiled kernel against the plain jnp reference, over the extended reals.

  Both programs first compute, with the same host operations on the same arguments, the neighbour means
  agg = scatter_add(x[src] into dst) / max(in-degree, 1) (the out-of-range and negative edge indices handled by the
  operations themselves, identically on both sides: the means are never opened here), and the transposed weights.
  The kernel then computes, tile by tile of 5000 nodes,  max ((agg · W_lᵀ + x · W_rᵀ) + b, 0)  (`KernelEntry`, `TileIndex`,
  `KernelTiles`: its result array is `Cert.Sage.layer` of the arrays its region finds, and those are the reference's own
  intermediate arrays, `HostPrefix`); the reference computes  max ((agg · W_lᵀ + b) + x · W_rᵀ, 0)  on whole arrays
  (`RefLayer`: also `Cert.Sage.layer`). The narrowing of the kernel's operands before each product is the identity on the
  extended reals, each product is the plain sum over the 128 input features, and the two groupings of the three summands
  agree because addition of extended reals is commutative and associative, infinities included: the precondition is not used.
  The frames are the generated ones; the reference's is its generated run with the result dropped; nothing was rewritten
  when the kernel was idealized, so that claim is trivial.
-/
import proofs.«143115_j39092792328709_1_alg».proof.Defs
import proofs.«143115_j39092792328709_1_alg».proof.Proof.Gen.Kernel
import proofs.«143115_j39092792328709_1_alg».proof.Proof.Gen.Kernel.Skeleton
import proofs.«143115_j39092792328709_1_alg».proof.Proof.Gen.Kernel.Launch
import proofs.«143115_j39092792328709_1_alg».proof.Proof.Gen.Kernel.Points
import proofs.«143115_j39092792328709_1_alg».proof.Proof.Gen.Kernel.Frame
import proofs.«143115_j39092792328709_1_alg».proof.Proof.Gen.KernelIdeal
import proofs.«143115_j39092792328709_1_alg».proof.Proof.Gen.KernelIdeal.Skeleton
import proofs.«143115_j39092792328709_1_alg».proof.Proof.Gen.KernelIdeal.Launch
import proofs.«143115_j39092792328709_1_alg».proof.Proof.Gen.KernelIdeal.Points
import proofs.«143115_j39092792328709_1_alg».proof.Proof.Gen.KernelIdeal.Frame
import proofs.«143115_j39092792328709_1_alg».proof.Proof.Gen.ReferenceIdeal
import proofs.«143115_j39092792328709_1_alg».proof.Proof.Gen.Pre_finite_inputs
import proofs.«143115_j39092792328709_1_alg».proof.Proof.Gen.KernelIdeal.Value
import proofs.«143115_j39092792328709_1_alg».proof.Proof.Gen.ReferenceIdeal.Run
import proofs.«143115_j39092792328709_1_alg».proof.Proof.Gen.ReferenceIdeal.Read
import proofs.«143115_j39092792328709_1_alg».proof.Proof.RefLayer
import proofs.«143115_j39092792328709_1_alg».proof.Proof.KernelTiles
import proofs.«143115_j39092792328709_1_alg».proof.Proof.HostPrefix
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result's equation dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the five arguments both programs end with the result at the layer of the reference's
    neighbour means, the node features, the transposed weights and the bias: the kernel by its tiles (`Tiles.run`,
    `HostPrefix.found_eq`), the reference by its stages (`Layer.result_eq`). -/
theorem algebraic : Cert.algebraic_KernelIdeal_ReferenceIdeal := by
  intro m ρ m' ρ' _ hagree
  refine ⟨fun c => Cert.KernelIdeal.Tiles.found m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  show _ = Cert.KernelIdeal.Tiles.found m c
  rw [Cert.KernelIdeal.HostPrefix.found_eq m c, Cert.ReferenceIdeal.Read.val_main_v31_eq,
    Cert.ReferenceIdeal.Layer.result_eq, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
